-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x16 : Shape := ⟨2, ![262144, 16]⟩
abbrev S16x24 : Shape := ⟨2, ![16, 24]⟩
abbrev S24 : Shape := ⟨1, ![24]⟩
abbrev S24x784 : Shape := ⟨2, ![24, 784]⟩
abbrev S784 : Shape := ⟨1, ![784]⟩
abbrev S_ : Shape := ⟨0, ![]⟩

class Facts : Prop where
  bcast_S_S262144x16 : S_.BroadcastsInDim S262144x16 (![] : Fin 0 → Fin S262144x16.rank)
  reducesTo_S262144x16_S_d0_1 : S262144x16.ReducesTo [0, 1] S_
  h_S_ : 0 < S_.numel
  bcast_S_S16x24 : S_.BroadcastsInDim S16x24 (![] : Fin 0 → Fin S16x24.rank)
  reducesTo_S16x24_S_d0_1 : S16x24.ReducesTo [0, 1] S_
  bcast_S_S24 : S_.BroadcastsInDim S24 (![] : Fin 0 → Fin S24.rank)
  reducesTo_S24_S_d0 : S24.ReducesTo [0] S_
  bcast_S_S24x784 : S_.BroadcastsInDim S24x784 (![] : Fin 0 → Fin S24x784.rank)
  reducesTo_S24x784_S_d0_1 : S24x784.ReducesTo [0, 1] S_
  bcast_S_S784 : S_.BroadcastsInDim S784 (![] : Fin 0 → Fin S784.rank)
  reducesTo_S784_S_d0 : S784.ReducesTo [0] S_

variable [Facts]

def fn_part1 {F : FTy → Type} [FloatOps F] (main_arg4 : FVec F S784 .f32) (main_v13 : IVec S_ 1) (main_v16 : IVec S24x784 1) : IVec S_ 1 :=
  let main_c_5 : IVec S_ 1 := constantI S_ 1 1#1
  let main_v17 : IVec S_ 1 := (fun x v => Host.reduce IntOp.andi x v reducesTo_S24x784_S_d0_1 h_S_) main_v16 main_c_5
  let main_v18 : IVec S_ 1 := andi main_v13 main_v17
  let main_v19 : FVec F S784 .f32 := Host.absf main_arg4
  let main_cst_6 : FVec F S_ .f32 := constant S_ .f32 0x7F800000#32
  let main_v20 : FVec F S784 .f32 := broadcastInDim S784 ![] bcast_S_S784 main_cst_6
  let main_v21 : IVec S784 1 := cmpf .olt main_v19 main_v20
  let main_c_7 : IVec S_ 1 := constantI S_ 1 1#1
  let main_v22 : IVec S_ 1 := (fun x v => Host.reduce IntOp.andi x v reducesTo_S784_S_d0 h_S_) main_v21 main_c_7
  let main_v23 : IVec S_ 1 := andi main_v18 main_v22
  main_v23

def fn {F : FTy → Type} [FloatOps F] (main_arg0 : FVec F S262144x16 .f32) (main_arg1 : FVec F S16x24 .f32) (main_arg2 : FVec F S24 .f32) (main_arg3 : FVec F S24x784 .f32) (main_arg4 : FVec F S784 .f32) : IVec S_ 1 :=
  let main_v0 : FVec F S262144x16 .f32 := Host.absf main_arg0
  let main_cst : FVec F S_ .f32 := constant S_ .f32 0x7F800000#32
  let main_v1 : FVec F S262144x16 .f32 := broadcastInDim S262144x16 ![] bcast_S_S262144x16 main_cst
  let main_v2 : IVec S262144x16 1 := cmpf .olt main_v0 main_v1
  let main_c : IVec S_ 1 := constantI S_ 1 1#1
  let main_v3 : IVec S_ 1 := (fun x v => Host.reduce IntOp.andi x v reducesTo_S262144x16_S_d0_1 h_S_) main_v2 main_c
  let main_v4 : FVec F S16x24 .f32 := Host.absf main_arg1
  let main_cst_0 : FVec F S_ .f32 := constant S_ .f32 0x7F800000#32
  let main_v5 : FVec F S16x24 .f32 := broadcastInDim S16x24 ![] bcast_S_S16x24 main_cst_0
  let main_v6 : IVec S16x24 1 := cmpf .olt main_v4 main_v5
  let main_c_1 : IVec S_ 1 := constantI S_ 1 1#1
  let main_v7 : IVec S_ 1 := (fun x v => Host.reduce IntOp.andi x v reducesTo_S16x24_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S24x784 .f32 := Host.absf main_arg3
  let main_cst_4 : FVec F S_ .f32 := constant S_ .f32 0x7F800000#32
  let main_v15 : FVec F S24x784 .f32 := broadcastInDim S24x784 ![] bcast_S_S24x784 main_cst_4
  let main_v16 : IVec S24x784 1 := cmpf .olt main_v14 main_v15
  fn_part1 (F := F) main_arg4 main_v13 main_v16
-- ==== Kernel.lean ====
abbrev S262144x16 : Shape := ⟨2, ![262144, 16]⟩
abbrev S16x24 : Shape := ⟨2, ![16, 24]⟩
abbrev S24 : Shape := ⟨1, ![24]⟩
abbrev S24x784 : Shape := ⟨2, ![24, 784]⟩
abbrev S784 : Shape := ⟨1, ![784]⟩
abbrev S1x24 : Shape := ⟨2, ![1, 24]⟩
abbrev S1x784 : Shape := ⟨2, ![1, 784]⟩
abbrev S262144x784 : Shape := ⟨2, ![262144, 784]⟩
abbrev S4096x16 : Shape := ⟨2, ![4096, 16]⟩
abbrev S4096x784 : Shape := ⟨2, ![4096, 784]⟩
abbrev S4096x24 : Shape := ⟨2, ![4096, 24]⟩

abbrev nBuf : Space → Nat
  | .hbm => 8
  | .vmem => 8
  | .smem => 0
  | _ => 0

abbrev bufTy : (tb : Table) → Fin (tcTables nBuf tb) → BufTy
  | .hbm, ⟨0, _⟩ => ⟨S262144x16, .f32⟩
  | .hbm, ⟨1, _⟩ => ⟨S16x24, .f32⟩
  | .hbm, ⟨2, _⟩ => ⟨S24, .f32⟩
  | .hbm, ⟨3, _⟩ => ⟨S24x784, .f32⟩
  | .hbm, ⟨4, _⟩ => ⟨S784, .f32⟩
  | .hbm, ⟨5, _⟩ => ⟨S1x24, .f32⟩
  | .hbm, ⟨6, _⟩ => ⟨S1x784, .f32⟩
  | .hbm, ⟨7, _⟩ => ⟨S262144x784, .f32⟩
  | .local _ .vmem, ⟨0, _⟩ => ⟨S4096x16, .f32⟩
  | .local _ .vmem, ⟨1, _⟩ => ⟨S4096x16, .f32⟩
  | .local _ .vmem, ⟨2, _⟩ => ⟨S16x24, .f32⟩
  | .local _ .vmem, ⟨3, _⟩ => ⟨S1x24, .f32⟩
  | .local _ .vmem, ⟨4, _⟩ => ⟨S24x784, .f32⟩
  | .local _ .vmem, ⟨5, _⟩ => ⟨S1x784, .f32⟩
  | .local _ .vmem, ⟨6, _⟩ => ⟨S4096x784, .f32⟩
  | .local _ .vmem, ⟨7, _⟩ => ⟨S4096x784, .f32⟩
  | _, _ => ⟨S262144x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x784 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x784 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x784 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S24_S1x24 : S24.ShapeCasts S1x24
  shapeCasts_S784_S1x784 : S784.ShapeCasts S1x784
  inb_S4096x16_S4096x16_0_0 : ∀ a, (![0, 0] : Fin 2 → Nat) a + S4096x16.size a ≤ S4096x16.size a
  h_S4096x16 : 0 < S4096x16.numel
  inb_S16x24_S16x24_0_0 : ∀ a, (![0, 0] : Fin 2 → Nat) a + S16x24.size a ≤ S16x24.size a
  h_S16x24 : 0 < S16x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S4096x24 : S1x24.Broadcasts S4096x24
  inb_S24x784_S24x784_0_0 : ∀ a, (![0, 0] : Fin 2 → Nat) a + S24x784.size a ≤ S24x784.size a
  h_S24x784 : 0 < S24x784.numel
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S4096x784 : S1x784.Broadcasts S4096x784
  inb_S4096x784_S4096x784_0_0 : ∀ a, (![0, 0] : Fin 2 → Nat) a + S4096x784.size a ≤ S4096x784.size a
  h_S4096x784 : 0 < S4096x784.numel
  dot_S4096x16_S16x24_S4096x24_1_0_0_1_n_n_wf : DotDims.WF S4096x16 S16x24 S4096x24 [1] [0] [0] [1] [] []
  dot_S4096x24_S24x784_S4096x784_1_0_0_1_n_n_wf : DotDims.WF S4096x24 S24x784 S4096x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S262144x16.size a
  hwx0_0 : ∀ i : grid0.Coords, EltTy.bits .f32 = 32 ∨ (Rect.block (s := S262144x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x24.size a ≤ S16x24.size a
  hwx0_1 : ∀ i : grid0.Coords, EltTy.bits .f32 = 32 ∨ (Rect.block (s := S16x24) S16x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x24.size a ≤ S1x24.size a
  hwx0_2 : ∀ i : grid0.Coords, EltTy.bits .f32 = 32 ∨ (Rect.block (s := S1x24) S1x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x784.size a ≤ S24x784.size a
  hwx0_3 : ∀ i : grid0.Coords, EltTy.bits .f32 = 32 ∨ (Rect.block (s := S24x784) S24x784.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x784.size a ≤ S1x784.size a
  hwx0_4 : ∀ i : grid0.Coords, EltTy.bits .f32 = 32 ∨ (Rect.block (s := S1x784) S1x784.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x784.size a ≤ S262144x784.size a
  hwx0_5 : ∀ i : grid0.Coords, EltTy.bits .f32 = 32 ∨ (Rect.block (s := S262144x784) S4096x784.size (cc0_transform_5 i) (hinb0_5 i)).WholeWords (EltTy.packing .f32)

variable [Facts₀]

def dot_S4096x16_S16x24_S4096x24_1_0_0_1_n_n : DotDims S4096x16 S16x24 S4096x24 where
  lhsContracting := [1]
  rhsContracting := [0]
  lhsNonContracting := [0]
  rhsNonContracting := [1]
  lhsBatch := []
  rhsBatch := []
  wf := dot_S4096x16_S16x24_S4096x24_1_0_0_1_n_n_wf
def dot_S4096x24_S24x784_S4096x784_1_0_0_1_n_n : DotDims S4096x24 S24x784 S4096x784 where
  lhsContracting := [1]
  rhsContracting := [0]
  lhsNonContracting := [0]
  rhsNonContracting := [1]
  lhsBatch := []
  rhsBatch := []
  wf := dot_S4096x24_S24x784_S4096x784_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x784.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x784.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4096x784.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x16 : Shape := ⟨2, ![262144, 16]⟩
abbrev S16x24 : Shape := ⟨2, ![16, 24]⟩
abbrev S24 : Shape := ⟨1, ![24]⟩
abbrev S24x784 : Shape := ⟨2, ![24, 784]⟩
abbrev S784 : Shape := ⟨1, ![784]⟩
abbrev S262144x24 : Shape := ⟨2, ![262144, 24]⟩
abbrev S1x24 : Shape := ⟨2, ![1, 24]⟩
abbrev S_ : Shape := ⟨0, ![]⟩
abbrev S262144x784 : Shape := ⟨2, ![262144, 784]⟩
abbrev S1x784 : Shape := ⟨2, ![1, 784]⟩

abbrev nBuf : Space → Nat
  | .hbm => 34
  | .vmem => 0
  | .smem => 0
  | _ => 0

abbrev bufTy : (tb : Table) → Fin (tcTables nBuf tb) → BufTy
  | .hbm, ⟨0, _⟩ => ⟨S262144x16, .f32⟩
  | .hbm, ⟨1, _⟩ => ⟨S16x24, .f32⟩
  | .hbm, ⟨2, _⟩ => ⟨S24, .f32⟩
  | .hbm, ⟨3, _⟩ => ⟨S24x784, .f32⟩
  | .hbm, ⟨4, _⟩ => ⟨S784, .f32⟩
  | .hbm, ⟨5, _⟩ => ⟨S262144x24, .f32⟩
  | .hbm, ⟨6, _⟩ => ⟨S1x24, .f32⟩
  | .hbm, ⟨7, _⟩ => ⟨S262144x24, .f32⟩
  | .hbm, ⟨8, _⟩ => ⟨S262144x24, .f32⟩
  | .hbm, ⟨9, _⟩ => ⟨S_, .f32⟩
  | .hbm, ⟨10, _⟩ => ⟨S262144x24, .f32⟩
  | .hbm, ⟨11, _⟩ => ⟨S262144x24, .f32⟩
  | .hbm, ⟨12, _⟩ => ⟨S262144x784, .f32⟩
  | .hbm, ⟨13, _⟩ => ⟨S1x784, .f32⟩
  | .hbm, ⟨14, _⟩ => ⟨S262144x784, .f32⟩
  | .hbm, ⟨15, _⟩ => ⟨S262144x784, .f32⟩
  | .hbm, ⟨16, _⟩ => ⟨S_, .f32⟩
  | .hbm, ⟨17, _⟩ => ⟨S262144x784, .f32⟩
  | .hbm, ⟨18, _⟩ => ⟨S262144x784, .f32⟩
  | .hbm, ⟨19, _⟩ => ⟨S_, .f32⟩
  | .hbm, ⟨20, _⟩ => ⟨S262144x784, .f32⟩
  | .hbm, ⟨21, _⟩ => ⟨S262144x784, .f32⟩
  | .hbm, ⟨22, _⟩ => ⟨S_, .f32⟩
  | .hbm, ⟨23, _⟩ => ⟨S262144x784, .f32⟩
  | .hbm, ⟨24, _⟩ => ⟨S262144x784, .f32⟩
  | .hbm, ⟨25, _⟩ => ⟨S_, .f32⟩
  | .hbm, ⟨26, _⟩ => ⟨S262144x784, .f32⟩
  | .hbm, ⟨27, _⟩ => ⟨S262144x784, .f32⟩
  | .hbm, ⟨28, _⟩ => ⟨S_, .f32⟩
  | .hbm, ⟨29, _⟩ => ⟨S262144x784, .f32⟩
  | .hbm, ⟨30, _⟩ => ⟨S262144x784, .f32⟩
  | .hbm, ⟨31, _⟩ => ⟨S_, .f32⟩
  | .hbm, ⟨32, _⟩ => ⟨S262144x784, .f32⟩
  | .hbm, ⟨33, _⟩ => ⟨S262144x784, .f32⟩
  | _, _ => ⟨S262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_call2_cst : Ref sig .tc := ⟨.hbm, 28, rfl⟩
abbrev main_call2_v0 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S24_S1x24_1 : S24.BroadcastsInDim S1x24 (![1] : Fin 1 → Fin S1x24.rank)
  bcast_S1x24_S262144x24_0_1 : S1x24.BroadcastsInDim S262144x24 (![0, 1] : Fin 2 → Fin S262144x24.rank)
  bcast_S_S262144x24 : S_.BroadcastsInDim S262144x24 (![] : Fin 0 → Fin S262144x24.rank)
  bcast_S784_S1x784_1 : S784.BroadcastsInDim S1x784 (![1] : Fin 1 → Fin S1x784.rank)
  bcast_S1x784_S262144x784_0_1 : S1x784.BroadcastsInDim S262144x784 (![0, 1] : Fin 2 → Fin S262144x784.rank)
  bcast_S_S262144x784 : S_.BroadcastsInDim S262144x784 (![] : Fin 0 → Fin S262144x784.rank)
  dot_S262144x16_S16x24_S262144x24_1_0_0_1_n_n_wf : DotDims.WF S262144x16 S16x24 S262144x24 [1] [0] [0] [1] [] []
  dot_S262144x24_S24x784_S262144x784_1_0_0_1_n_n_wf : DotDims.WF S262144x24 S24x784 S262144x784 [1] [0] [0] [1] [] []

variable [Facts₀]

def dot_S262144x16_S16x24_S262144x24_1_0_0_1_n_n : DotDims S262144x16 S16x24 S262144x24 where
  lhsContracting := [1]
  rhsContracting := [0]
  lhsNonContracting := [0]
  rhsNonContracting := [1]
  lhsBatch := []
  rhsBatch := []
  wf := dot_S262144x16_S16x24_S262144x24_1_0_0_1_n_n_wf
def dot_S262144x24_S24x784_S262144x784_1_0_0_1_n_n : DotDims S262144x24 S24x784 S262144x784 where
  lhsContracting := [1]
  rhsContracting := [0]
  lhsNonContracting := [0]
  rhsNonContracting := [1]
  lhsBatch := []
  rhsBatch := []
  wf := dot_S262144x24_S24x784_S262144x784_1_0_0_1_n_n_wf

class Facts : Prop extends Facts₀ where

variable [Facts]
-- ==== Proof.MlpSpec.lean ====
/-
  The function both programs compute, entry by entry, on the extended reals.

  For a batch `x` of `n` rows of 16 features, weights `W1` (16 × 24), `W2` (24 × 784) and bias rows `b1`, `b2`,
  the entry at row `r`, column `q` is

      1 − max (1 − max (¼ · z + ½) 0) 0,      z = (∑ₖ hₖ · W2[k, q]) + b2[q],      hₖ = max ((∑ⱼ x[r, j] · W1[j, k]) + b1[k]) 0,

  a two-layer perceptron with a rectifier after the first layer and the "hard sigmoid" clamp(¼ z + ½, 0, 1), written as
  two nested rectifiers, after the second. The four constants are kept as the binary32 words the programs print
  (0x3E800000 = ¼, 0x3F000000 = ½, 0x3F800000 = 1, and the zero word): both programs print the same words in the same
  places, so none of them is ever evaluated.

  The entry depends on `x` only through row `r`. So the function may be read over any array that holds that row,
  under any row number: a block of 4096 consecutive rows computes, at its local row `p`, the entry of the whole
  batch at row `4096 · t + p` (`entry_congr`). The biases enter as functions of the column alone, so that a bias held as
  a vector of length 24 and one held as a 1 × 24 row are the same argument. `whole` is the 262144 × 784 array of all
  entries, the one function both programs' results are shown to be.
-/
import Idealize.ShloMosaic.PureOps.Ideal
import Idealize.ShloMosaic.Lib.ValueIdx

noncomputable section

open scoped BigOperators

namespace Cert.Mlp

open Idealize.ShloMosaic Idealize.ShloMosaic.ValueIdx

/-- Hidden unit `k` of row `r`: the rectified affine form of the row's 16 features. -/
def hidden {n : ℕ} (x : FVec Ideal ⟨2, ![n, 16]⟩ .f32) (W1 : FVec Ideal ⟨2, ![16, 24]⟩ .f32) (b1 : Fin 24 → Ideal .f32)
    (r : Fin n) (k : Fin 24) : Ideal .f32 :=
  max ((∑ j : Fin 16, x (ix2 r j) * W1 (ix2 j k)) + b1 k) (Ideal.ofBits .f32 0x00000000#32)

/-- The entry at row `r`, column `q`: the clamped affine form of the row's 24 hidden units. -/
def entry {n : ℕ} (x : FVec Ideal ⟨2, ![n, 16]⟩ .f32) (W1 : FVec Ideal ⟨2, ![16, 24]⟩ .f32) (b1 : Fin 24 → Ideal .f32)
    (W2 : FVec Ideal ⟨2, ![24, 784]⟩ .f32) (b2 : Fin 784 → Ideal .f32) (r : Fin n) (q : Fin 784) : Ideal .f32 :=
  Ideal.ofBits .f32 0x3F800000#32
    - max (Ideal.ofBits .f32 0x3F800000#32
        - max (Ideal.ofBits .f32 0x3E800000#32 * ((∑ k : Fin 24, hidden x W1 b1 r k * W2 (ix2 k q)) + b2 q)
            + Ideal.ofBits .f32 0x3F000000#32) (Ideal.ofBits .f32 0x00000000#32))
      (Ideal.ofBits .f32 0x00000000#32)

/-- A hidden unit reads `x` only along its row: two arrays that agree on a row, under whatever row numbers, give the
    same unit. -/
theorem hidden_congr {n n' : ℕ} (x : FVec Ideal ⟨2, ![n, 16]⟩ .f32) (x' : FVec Ideal ⟨2, ![n', 16]⟩ .f32)
    (W1 : FVec Ideal ⟨2, ![16, 24]⟩ .f32) (b1 : Fin 24 → Ideal .f32) (r : Fin n) (r' : Fin n')
    (hx : ∀ j : Fin 16, x (ix2 r j) = x' (ix2 r' j)) (k : Fin 24) :
    hidden x W1 b1 r k = hidden x' W1 b1 r' k := by
  unfold hidden
  rw [Finset.sum_congr rfl fun j _ => by rw [hx j]]

/-- So does an entry; stated with every operand's agreement as a hypothesis, so that it joins an entry of one point's
    loaded blocks to an entry of the whole argument arrays: the rows of `x` agree under the two row numbers, the weights
    are equal, the biases agree column by column. -/
theorem entry_congr {n n' : ℕ} (x : FVec Ideal ⟨2, ![n, 16]⟩ .f32) (x' : FVec Ideal ⟨2, ![n', 16]⟩ .f32)
    (W1 W1' : FVec Ideal ⟨2, ![16, 24]⟩ .f32) (b1 b1' : Fin 24 → Ideal .f32) (W2 W2' : FVec Ideal ⟨2, ![24, 784]⟩ .f32)
    (b2 b2' : Fin 784 → Ideal .f32) (r : Fin n) (r' : Fin n') (hx : ∀ j : Fin 16, x (ix2 r j) = x' (ix2 r' j))
    (hW1 : W1 = W1') (hb1 : ∀ k, b1 k = b1' k) (hW2 : W2 = W2') (hb2 : ∀ c, b2 c = b2' c) (q : Fin 784) :
    entry x W1 b1 W2 b2 r q = entry x' W1' b1' W2' b2' r' q := by
  subst hW1 hW2
  obtain rfl : b1 = b1' := funext hb1
  obtain rfl : b2 = b2' := funext hb2
  unfold entry
  rw [Finset.sum_congr rfl fun k _ => by rw [hidden_congr x x' W1 b1 r r' hx k]]

/-- The whole result: the 262144 × 784 array of entries, from the five argument arrays (the biases as vectors). -/
def whole (x : FVec Ideal ⟨2, ![262144, 16]⟩ .f32) (W1 : FVec Ideal ⟨2, ![16, 24]⟩ .f32) (b1 : FVec Ideal ⟨1, ![24]⟩ .f32)
    (W2 : FVec Ideal ⟨2, ![24, 784]⟩ .f32) (b2 : FVec Ideal ⟨1, ![784]⟩ .f32) : FVec Ideal ⟨2, ![262144, 784]⟩ .f32 :=
  fun i => entry x W1 (fun k => b1 (ix1 k)) W2 (fun c => b2 (ix1 c)) (i 0) (i 1)

theorem whole_apply (x : FVec Ideal ⟨2, ![262144, 16]⟩ .f32) (W1 : FVec Ideal ⟨2, ![16, 24]⟩ .f32) (b1 : FVec Ideal ⟨1, ![24]⟩ .f32)
    (W2 : FVec Ideal ⟨2, ![24, 784]⟩ .f32) (b2 : FVec Ideal ⟨1, ![784]⟩ .f32) (r : Fin 262144) (q : Fin 784) :
    whole x W1 b1 W2 b2 (ix2 r q) = entry x W1 (fun k => b1 (ix1 k)) W2 (fun c => b2 (ix1 c)) r q := rfl

end Cert.Mlp

end
-- ==== Proof.KernelEntry.lean ====
/-
  One point's stored block computes `Cert.Mlp.entry` of the point's loaded blocks.

  The body loads a block of 4096 rows of `x`, the two weight matrices whole and the two biases as 1 × 24 and 1 × 784 rows,
  and stores one value: the hard-sigmoid of the second layer. A matrix product into the zero accumulator is, at an
  entry, the sum over the contracted axis of the operands' products; the bias row broadcast over the 4096 rows reads its
  one row; the rectifiers and the scalings are entry by entry. Read at the block's entry `(p, q)` the stored value is
  therefore `entry` of the loaded blocks at local row `p`, with the bias rows read at their row 0.
-/
import proofs.«401535_j35459249995900_3_alg».proof.Proof.Gen.KernelIdeal.Skeleton
import proofs.«401535_j35459249995900_3_alg».proof.Proof.MlpSpec
import Idealize.ShloMosaic.PureOps.Ideal.Laws
import Idealize.ShloMosaic.Lib.Pipeline.Value
import Idealize.ShloMosaic.Lib.ValueLayout

noncomputable section

open scoped BigOperators

namespace Cert.Mlp.Kernel

open Cert.KernelIdeal Cert.KernelIdeal.Gen Idealize.ShloMosaic Idealize.ShloMosaic.ValueIdx

/-! ## The operand indices of the two products, axis by axis -/

theorem lhs_first_0 (i : S4096x24.Idx) (c : dot_S4096x16_S16x24_S4096x24_1_0_0_1_n_n.contr.Idx) :
    (dot_S4096x16_S16x24_S4096x24_1_0_0_1_n_n.lhsIdx i c 0).val = (i 0).val := by
  unfold DotDims.lhsIdx
  rw [dif_neg (show ¬(0 : Fin S4096x16.rank) ∈ dot_S4096x16_S16x24_S4096x24_1_0_0_1_n_n.lhsBatch by decide), dif_pos (show (0 : Fin S4096x16.rank) ∈ dot_S4096x16_S16x24_S4096x24_1_0_0_1_n_n.lhsNonContracting by decide)]
  rfl
theorem lhs_first_1 (i : S4096x24.Idx) (c : dot_S4096x16_S16x24_S4096x24_1_0_0_1_n_n.contr.Idx) :
    (dot_S4096x16_S16x24_S4096x24_1_0_0_1_n_n.lhsIdx i c 1).val = (c ⟨0, by decide⟩).val :=
  dot_S4096x16_S16x24_S4096x24_1_0_0_1_n_n.lhsIdx_val_of_single rfl i c
theorem rhs_first_0 (i : S4096x24.Idx) (c : dot_S4096x16_S16x24_S4096x24_1_0_0_1_n_n.contr.Idx) :
    (dot_S4096x16_S16x24_S4096x24_1_0_0_1_n_n.rhsIdx i c 0).val = (c ⟨0, by decide⟩).val :=
  dot_S4096x16_S16x24_S4096x24_1_0_0_1_n_n.rhsIdx_val_of_single rfl i c
theorem rhs_first_1 (i : S4096x24.Idx) (c : dot_S4096x16_S16x24_S4096x24_1_0_0_1_n_n.contr.Idx) :
    (dot_S4096x16_S16x24_S4096x24_1_0_0_1_n_n.rhsIdx i c 1).val = (i 1).val := by
  unfold DotDims.rhsIdx
  rw [dif_neg (show ¬(1 : Fin S16x24.rank) ∈ dot_S4096x16_S16x24_S4096x24_1_0_0_1_n_n.rhsBatch by decide), dif_pos (show (1 : Fin S16x24.rank) ∈ dot_S4096x16_S16x24_S4096x24_1_0_0_1_n_n.rhsNonContracting by decide)]
  rfl

theorem lhs_second_0 (i : S4096x784.Idx) (c : dot_S4096x24_S24x784_S4096x784_1_0_0_1_n_n.contr.Idx) :
    (dot_S4096x24_S24x784_S4096x784_1_0_0_1_n_n.lhsIdx i c 0).val = (i 0).val := by
  unfold DotDims.lhsIdx
  rw [dif_neg (show ¬(0 : Fin S4096x24.rank) ∈ dot_S4096x24_S24x784_S4096x784_1_0_0_1_n_n.lhsBatch by decide), dif_pos (show (0 : Fin S4096x24.rank) ∈ dot_S4096x24_S24x784_S4096x784_1_0_0_1_n_n.lhsNonContracting by decide)]
  rfl
theorem lhs_second_1 (i : S4096x784.Idx) (c : dot_S4096x24_S24x784_S4096x784_1_0_0_1_n_n.contr.Idx) :
    (dot_S4096x24_S24x784_S4096x784_1_0_0_1_n_n.lhsIdx i c 1).val = (c ⟨0, by decide⟩).val :=
  dot_S4096x24_S24x784_S4096x784_1_0_0_1_n_n.lhsIdx_val_of_single rfl i c
theorem rhs_second_0 (i : S4096x784.Idx) (c : dot_S4096x24_S24x784_S4096x784_1_0_0_1_n_n.contr.Idx) :
    (dot_S4096x24_S24x784_S4096x784_1_0_0_1_n_n.rhsIdx i c 0).val = (c ⟨0, by decide⟩).val :=
  dot_S4096x24_S24x784_S4096x784_1_0_0_1_n_n.rhsIdx_val_of_single rfl i c
theorem rhs_second_1 (i : S4096x784.Idx) (c : dot_S4096x24_S24x784_S4096x784_1_0_0_1_n_n.contr.Idx) :
    (dot_S4096x24_S24x784_S4096x784_1_0_0_1_n_n.rhsIdx i c 1).val = (i 1).val := by
  unfold DotDims.rhsIdx
  rw [dif_neg (show ¬(1 : Fin S24x784.rank) ∈ dot_S4096x24_S24x784_S4096x784_1_0_0_1_n_n.rhsBatch by decide), dif_pos (show (1 : Fin S24x784.rank) ∈ dot_S4096x24_S24x784_S4096x784_1_0_0_1_n_n.rhsNonContracting by decide)]
  rfl

/-! ## The two products at an entry -/

/-- The first layer's product at `(p, c)`: row `p` of the left operand against column `c` of the right, over the 16 features. -/
theorem first_product (l : FVec Ideal S4096x16 .f32) (w : FVec Ideal S16x24 .f32) (p : Fin 4096) (c : Fin 24) :
    matmul dot_S4096x16_S16x24_S4096x24_1_0_0_1_n_n none l w (constant (F := Ideal) S4096x24 .f32 0x00000000#32) (ix2 p c)
      = ∑ k : Fin 16, l (ix2 p k) * w (ix2 k c) := by
  simp only [matmul]
  rw [Ideal.matmul_constant_zero_apply, ← Equiv.sum_comp (contrEquiv1 dot_S4096x16_S16x24_S4096x24_1_0_0_1_n_n 16 rfl rfl).symm]
  refine Finset.sum_congr rfl fun k _ => ?_
  have hk := contrEquiv1_symm_val dot_S4096x16_S16x24_S4096x24_1_0_0_1_n_n 16 rfl rfl k
  have el : dot_S4096x16_S16x24_S4096x24_1_0_0_1_n_n.lhsIdx (ix2 p c) ((contrEquiv1 dot_S4096x16_S16x24_S4096x24_1_0_0_1_n_n 16 rfl rfl).symm k) = ix2 p k := funext fun a => Fin.ext (by
    match a with
    | ⟨0, _⟩ => exact lhs_first_0 _ _
    | ⟨1, _⟩ => exact (lhs_first_1 _ _).trans hk)
  have er : dot_S4096x16_S16x24_S4096x24_1_0_0_1_n_n.rhsIdx (ix2 p c) ((contrEquiv1 dot_S4096x16_S16x24_S4096x24_1_0_0_1_n_n 16 rfl rfl).symm k) = ix2 k c := funext fun a => Fin.ext (by
    match a with
    | ⟨0, _⟩ => exact (rhs_first_0 _ _).trans hk
    | ⟨1, _⟩ => exact rhs_first_1 _ _)
  rw [el, er]

/-- The second layer's product at `(p, c)`, over the 24 hidden units. -/
theorem second_product (l : FVec Ideal S4096x24 .f32) (w : FVec Ideal S24x784 .f32) (p : Fin 4096) (c : Fin 784) :
    matmul dot_S4096x24_S24x784_S4096x784_1_0_0_1_n_n none l w (constant (F := Ideal) S4096x784 .f32 0x00000000#32) (ix2 p c)
      = ∑ k : Fin 24, l (ix2 p k) * w (ix2 k c) := by
  simp only [matmul]
  rw [Ideal.matmul_constant_zero_apply, ← Equiv.sum_comp (contrEquiv1 dot_S4096x24_S24x784_S4096x784_1_0_0_1_n_n 24 rfl rfl).symm]
  refine Finset.sum_congr rfl fun k _ => ?_
  have hk := contrEquiv1_symm_val dot_S4096x24_S24x784_S4096x784_1_0_0_1_n_n 24 rfl rfl k
  have el : dot_S4096x24_S24x784_S4096x784_1_0_0_1_n_n.lhsIdx (ix2 p c) ((contrEquiv1 dot_S4096x24_S24x784_S4096x784_1_0_0_1_n_n 24 rfl rfl).symm k) = ix2 p k := funext fun a => Fin.ext (by
    match a with
    | ⟨0, _⟩ => exact lhs_second_0 _ _
    | ⟨1, _⟩ => exact (lhs_second_1 _ _).trans hk)
  have er : dot_S4096x24_S24x784_S4096x784_1_0_0_1_n_n.rhsIdx (ix2 p c) ((contrEquiv1 dot_S4096x24_S24x784_S4096x784_1_0_0_1_n_n 24 rfl rfl).symm k) = ix2 k c := funext fun a => Fin.ext (by
    match a with
    | ⟨0, _⟩ => exact (rhs_second_0 _ _).trans hk
    | ⟨1, _⟩ => exact rhs_second_1 _ _)
  rw [el, er]

/-! ## The stored value at an entry -/

/-- The value the body stores, at the block's entry `(p, q)`, is `entry` of the loaded blocks at local row `p`. -/
theorem payload_entry (x0 : Vec Ideal S4096x16 .f32) (x1 : Vec Ideal S16x24 .f32) (x2 : Vec Ideal S1x24 .f32)
    (x3 : Vec Ideal S24x784 .f32) (x4 : Vec Ideal S1x784 .f32) (p : Fin 4096) (q : Fin 784) :
    k0_pay1 (F := Ideal) x0 x1 x2 x3 x4 (ix2 p q)
      = entry x0 x1 (fun k => x2 (ix2 (0 : Fin 1) k)) x3 (fun c => x4 (ix2 (0 : Fin 1) c)) p q := by
  unfold k0_pay1 entry hidden
  simp only [subf_apply, maximumf_apply, addf_apply, mulf_apply, broadcast_apply, second_product, first_product,
    broadcastTo_1b_ab_apply, shapeCast_self, Ideal.ofBits_def]

end Cert.Mlp.Kernel

end
-- ==== Proof.KernelArray.lean ====
/-
  From one point's block to the whole array: after the run the kernel's result array is `Cert.Mlp.whole` of the argument
  arrays.

  The grid has 64 points. Point `t` is handed rows `4096·t … 4096·t + 4095` of `x` (block index `(t, 0)` of blocks
  4096 × 16), the two weight matrices whole (block index `(0, 0)` at every point), and the two biases as the one row of
  a 1 × 24 and a 1 × 784 array that @main makes from the bias vectors by a reshape before the launch; it writes back
  rows `4096·t … 4096·t + 4095` of the result (block index `(t, 0)` of blocks 4096 × 784). By `payload_entry` the block
  it writes holds, at `(p, q)`, the entry of its loaded blocks at local row `p`; that row of its `x` block is row
  `4096·t + p` of `x`, and an entry reads `x` along its row only (`entry_congr`): so the point writes exactly block `t` of
  `whole`. Row `r` of the result lies in the block of point `r / 4096`, so the 64 blocks cover the array, and the array
  ends as `whole`.
-/
import proofs.«401535_j35459249995900_3_alg».proof.Proof.Gen.KernelIdeal.Value
import proofs.«401535_j35459249995900_3_alg».proof.Proof.KernelEntry

noncomputable section

namespace Cert.Mlp.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The block indices, over the 64 points -/

theorem zero_offsets : (![0, 0] : Fin 2 → Nat) = fun _ => 0 := funext fun a => by fin_cases a <;> rfl

/-- The printed index maps, decided point by point: the `x` window and the result window are at block `(t, 0)`, the
    weights and the bias rows at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The bias rows the region finds -/

/-- The 1 × 24 array the region finds is the first bias vector, reshaped. -/
theorem bias1_row (c : Dev nD) : (V m c main_v0 : S1x24.Idx → Elt Ideal .f32)
    = shapeCast S1x24 (m ((c : Thread nD τ).loc main_arg2)) shapeCasts_S24_S1x24 := by
  dsimp only [Gen.V, Gen.hostOps0]; after_results; rfl

/-- The 1 × 784 array the region finds is the second bias vector, reshaped. -/
theorem bias2_row (c : Dev nD) : (V m c main_v1 : S1x784.Idx → Elt Ideal .f32)
    = shapeCast S1x784 (m ((c : Thread nD τ).loc main_arg4)) shapeCasts_S784_S1x784 := by
  dsimp only [Gen.V, Gen.hostOps0]; after_results; rfl

/-! ## Each window's block at a point, read off the argument arrays -/

/-- Local row `p` of point `t`'s block of `x` is row `4096·t + p` of `x`. -/
theorem x_block (c : Dev nD) (t : Fin cfg0.N) (p : Fin 4096) (j : Fin 16) (r : Fin 262144) (hr : r.val = t.val * 4096 + p.val) :
    iblk m c 0 t (ix2 p j) = (m ((c : Thread nD τ).loc main_arg0)) (ix2 r j) := by
  obtain ⟨e0, e1, -⟩ := block_indices t
  show V m c main_arg0 (((cfg0.win 0).blk t).view.emb (ix2 p j)) = _
  rw [V_main_arg0]
  refine congrArg _ (funext fun a => Fin.ext ?_)
  match a with
  | ⟨0, _⟩ => show win0_0.index t (0 : Fin 2) * 4096 + 1 * p.val = r.val; omega
  | ⟨1, _⟩ => show win0_0.index t (1 : Fin 2) * 16 + 1 * j.val = j.val; omega

/-- Every point's block of `W1` is `W1`. -/
theorem w1_block (c : Dev nD) (t : Fin cfg0.N) : (iblk m c 1 t : S16x24.Idx → Elt Ideal .f32) = (m ((c : Thread nD τ).loc main_arg1)) := by
  obtain ⟨-, -, e0, e1, -⟩ := block_indices t
  funext y
  show V m c main_arg1 (((cfg0.win 1).blk t).view.emb y) = _
  rw [V_main_arg1]
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 24 + 1 * (y 1).val = (y 1).val; omega

/-- Every point's block of `W2` is `W2`. -/
theorem w2_block (c : Dev nD) (t : Fin cfg0.N) : (iblk m c 3 t : S24x784.Idx → Elt Ideal .f32) = (m ((c : Thread nD τ).loc main_arg3)) := by
  obtain ⟨-, -, -, -, -, -, e0, e1, -⟩ := block_indices t
  funext y
  show V m c main_arg3 (((cfg0.win 3).blk t).view.emb y) = _
  rw [V_main_arg3]
  refine congrArg _ (funext fun a => Fin.ext ?_)
  match a with
  | ⟨0, _⟩ => show win0_3.index t (0 : Fin 2) * 24 + 1 * (y 0).val = (y 0).val; omega
  | ⟨1, _⟩ => show win0_3.index t (1 : Fin 2) * 784 + 1 * (y 1).val = (y 1).val; omega

/-- The one row of every point's block of the first bias row is the bias vector. -/
theorem b1_block (c : Dev nD) (t : Fin cfg0.N) (k : Fin 24) :
    iblk m c 2 t (ix2 (0 : Fin 1) k) = (m ((c : Thread nD τ).loc main_arg2)) (ix1 k) := by
  obtain ⟨-, -, -, -, e0, e1, -⟩ := block_indices t
  have hemb : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 24 + 1 * k.val = k.val; omega)
  show V m c main_v0 (((cfg0.win 2).blk t).view.emb (ix2 (0 : Fin 1) k)) = _
  rw [hemb, bias1_row]
  exact shapeCast_a_1a_apply _ _ _ _

/-- The one row of every point's block of the second bias row is the bias vector. -/
theorem b2_block (c : Dev nD) (t : Fin cfg0.N) (q : Fin 784) :
    iblk m c 4 t (ix2 (0 : Fin 1) q) = (m ((c : Thread nD τ).loc main_arg4)) (ix1 q) := by
  obtain ⟨-, -, -, -, -, -, -, -, e0, e1, -⟩ := block_indices t
  have hemb : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 784 + 1 * q.val = q.val; omega)
  show V m c main_v1 (((cfg0.win 4).blk t).view.emb (ix2 (0 : Fin 1) q)) = _
  rw [hemb, bias2_row]
  exact shapeCast_a_1a_apply _ _ _ _

/-! ## What a point writes back -/

/-- Point `t` writes back block `t` of `whole` of the argument arrays. -/
theorem flushed_eq (c : Dev nD) (t : Fin cfg0.N) :
    (dats m 0 c).flushed 5 t = ((cfg0.win 5).blk t).view.read (Elt Ideal) (whole (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5]
  unfold out0_5
  rw [View.canon_unit_zero zero_offsets]
  simp only [View.ld_unit_zero (S := S4096x16) zero_offsets, View.ld_unit_zero (S := S16x24) zero_offsets,
    View.ld_unit_zero (S := S1x24) zero_offsets, View.ld_unit_zero (S := S24x784) zero_offsets,
    View.ld_unit_zero (S := S1x784) zero_offsets]
  funext y
  obtain ⟨p, q, rfl⟩ : ∃ (p : Fin 4096) (q : Fin 784), y = ix2 p q := ⟨y 0, y 1, eq_ix2 y⟩
  have ht : t.val < 64 := lt_of_lt_of_eq t.isLt N_0
  obtain ⟨-, -, -, -, -, -, -, -, -, -, e0, e1⟩ := block_indices t
  have hemb : ((cfg0.win 5).blk t).view.emb (ix2 p q)
      = ix2 (⟨t.val * 4096 + p.val, by omega⟩ : Fin 262144) q := funext fun a => Fin.ext (by
    match a with
    | ⟨0, _⟩ => show win0_5.index t (0 : Fin 2) * 4096 + 1 * p.val = t.val * 4096 + p.val; omega
    | ⟨1, _⟩ => show win0_5.index t (1 : Fin 2) * 784 + 1 * q.val = q.val; omega)
  show k0_pay1 (F := Ideal) (iblk m c 0 t) (iblk m c 1 t) (iblk m c 2 t) (iblk m c 3 t) (iblk m c 4 t) (ix2 p q)
    = (whole (m ((c : Thread nD τ).loc main_arg0)) (m ((c : Thread nD τ).loc main_arg1)) (m ((c : Thread nD τ).loc main_arg2)) (m ((c : Thread nD τ).loc main_arg3)) (m ((c : Thread nD τ).loc main_arg4))) (((cfg0.win 5).blk t).view.emb (ix2 p q))
  rw [hemb, whole_apply]
  refine (payload_entry _ _ _ _ _ p q).trans ?_
  exact entry_congr _ _ _ _ _ _ _ _ _ _ p _ (fun j => x_block m c t p j _ rfl) (w1_block m c t)
    (fun k => b1_block m c t k) (w2_block m c t) (fun q' => b2_block m c t q') q

/-! ## The blocks cover the array -/

/-- An index is in point `t`'s block iff each coordinate is in the block's range on its axis. -/
theorem mem_block (t : Fin cfg0.N) (i : S262144x784.Idx) :
    i ∈ ((cfg0.win 5).blk t).view.set ↔ ∀ a : Fin 2, win0_5.index t a * S4096x784.size a ≤ (i a).val
      ∧ (i a).val < win0_5.index t a * S4096x784.size a + S4096x784.size a := by
  show i ∈ ((View.whole main_v2).slice (win0_5.rect t)).set ↔ _
  rw [View.set_slice_whole, Rect.mem_set_unit]
  exact Iff.rfl

/-- Row `r` lies in the block of point `r / 4096`: every index of the result is in some point's block, and every point
    writes its block back. -/
theorem covered (i : S262144x784.Idx) :
    ∃ t : Fin cfg0.N, (cfg0.win 5).flush t = true ∧ i ∈ ((cfg0.win 5).blk t).view.set := by
  have h0 : (i 0).val < 262144 := (i 0).isLt
  have h1 : (i 1).val < 784 := (i 1).isLt
  obtain ⟨t, ht⟩ : ∃ t : Fin cfg0.N, t.val = (i 0).val / 4096 :=
    ⟨⟨(i 0).val / 4096, lt_of_lt_of_eq (by omega) N_0.symm⟩, rfl⟩
  obtain ⟨-, -, -, -, -, -, -, -, -, -, e0, e1⟩ := block_indices t
  refine ⟨t, flush0_5 t, ?_⟩
  rw [mem_block]
  intro a
  match a with
  | ⟨0, _⟩ =>
    show win0_5.index t (0 : Fin 2) * 4096 ≤ (i 0).val ∧ (i 0).val < win0_5.index t (0 : Fin 2) * 4096 + 4096
    omega
  | ⟨1, _⟩ =>
    show win0_5.index t (1 : Fin 2) * 784 ≤ (i 1).val ∧ (i 1).val < win0_5.index t (1 : Fin 2) * 784 + 784
    omega

/-! ## The array after the run -/

/-- The result array after the run is `whole` of the argument arrays. -/
theorem final (c : Dev nD) : (dats m 0 c).arrAt 5 cfg0.N = (whole (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 5 _ (fun t _ => flushed_eq m c t) covered

/-- The kernel's run: every weakly fair execution terminates with the result array at `whole` of the argument arrays,
    the arguments unchanged. -/
theorem run : θ_run defs (onTc (τ := τ) (main (F := Ideal))) ⟨m, fun _ => 0, ρ⟩ fun r => ∀ c : Dev nD,
      r.2.mem ((c : Thread nD τ).loc main_v2) = (whole (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Mlp.Kernel

end
-- ==== Proof.RefEntry.lean ====
/-
  The reference program computes `Cert.Mlp.entry`.

  Its result is a chain of 29 whole-array operations: two `dot_general`s, each a sum over its one contracted axis; the
  biases broadcast from a vector to a row and from the row to every row of the batch; three rectifiers, each a maximum
  with a broadcast zero; and the scalings by the broadcast constants ¼, ½, 1. Read at the entry `(r, q)` one operation at
  a time, every broadcast disappears into the index it reads its operand at, the first product reads row `r` of `x` and
  column `k` of `W1`, the second reads the rectified hidden row and column `q` of `W2`, and what is left is the formula
  of `entry` term for term.
-/
import proofs.«401535_j35459249995900_3_alg».proof.Proof.Gen.ReferenceIdeal.Read
import proofs.«401535_j35459249995900_3_alg».proof.Proof.MlpSpec

noncomputable section

open scoped BigOperators

namespace Cert.Mlp.Ref

open Cert.ReferenceIdeal Cert.ReferenceIdeal.Read Idealize.ShloMosaic Idealize.ShloMosaic.ValueIdx

/-! ## The indices the operations read their operands at -/

/-- The first product at hidden entry `(r, k)`, summand `j`, reads `x` at `(r, j)`, -/
theorem x_at (r : Fin 262144) (q : Fin 784) (k : Fin 24) (j : Fin 16) :
    lidx_main_v0 (lidx_main_v5 (ix2 r q) k) j = ix2 r j :=
  funext fun a => match a with | ⟨0, _⟩ => rfl | ⟨1, _⟩ => rfl

/-- and `W1` at `(j, k)`. -/
theorem w1_at (r : Fin 262144) (q : Fin 784) (k : Fin 24) (j : Fin 16) :
    ridx_main_v0 (lidx_main_v5 (ix2 r q) k) j = ix2 j k :=
  funext fun a => match a with | ⟨0, _⟩ => rfl | ⟨1, _⟩ => rfl

/-- The first bias, broadcast to a row and then to the batch, is read at `k`. -/
theorem b1_at (r : Fin 262144) (q : Fin 784) (k : Fin 24) :
    idx_main_v1 (idx_main_v2 (lidx_main_v5 (ix2 r q) k)) = ix1 k :=
  funext fun a => match a with | ⟨0, _⟩ => rfl

/-- The second product at `(r, q)`, summand `k`, reads `W2` at `(k, q)`. -/
theorem w2_at (r : Fin 262144) (q : Fin 784) (k : Fin 24) : ridx_main_v5 (ix2 r q) k = ix2 k q :=
  funext fun a => match a with | ⟨0, _⟩ => rfl | ⟨1, _⟩ => rfl

/-- The second bias is read at `q`. -/
theorem b2_at (r : Fin 262144) (q : Fin 784) : idx_main_v6 (idx_main_v7 (ix2 r q)) = ix1 q :=
  funext fun a => match a with | ⟨0, _⟩ => rfl

/-! ## The result at an entry -/

/-- The reference's result at `(r, q)` is `entry` of its five arguments, the biases read as functions of the column. -/
theorem result_entry (a0 : (⟨S262144x16, .f32⟩ : BufTy).Contents (Elt Ideal)) (a1 : (⟨S16x24, .f32⟩ : BufTy).Contents (Elt Ideal))
    (a2 : (⟨S24, .f32⟩ : BufTy).Contents (Elt Ideal)) (a3 : (⟨S24x784, .f32⟩ : BufTy).Contents (Elt Ideal))
    (a4 : (⟨S784, .f32⟩ : BufTy).Contents (Elt Ideal)) (r : Fin 262144) (q : Fin 784) :
    val_main_v18 (F := Ideal) a0 a1 a2 a3 a4 (ix2 r q)
      = entry a0 a1 (fun k => a2 (ix1 k)) a3 (fun c => a4 (ix1 c)) r q := by
  simp only [val_main_v18_apply, val_main_v17_apply, val_main_cst_2_apply, val_main_v16_apply, val_main_call2_v0_apply,
    val_main_call2_cst_apply, val_main_v15_apply, val_main_v14_apply, val_main_cst_1_apply, val_main_v13_apply,
    val_main_call1_v0_apply, val_main_call1_cst_apply, val_main_v12_apply, val_main_v11_apply, val_main_cst_0_apply,
    val_main_v10_apply, val_main_v9_apply, val_main_cst_apply, val_main_v8_apply, val_main_v7_apply, val_main_v6_apply,
    val_main_v5_apply, val_main_v4_apply, val_main_call0_v0_apply, val_main_call0_cst_apply, val_main_v3_apply,
    val_main_v2_apply, val_main_v1_apply, val_main_v0_apply,
    x_at, w1_at, b1_at, w2_at, b2_at,
    Ideal.subf_def, Ideal.maximumf_def, Ideal.addf_def, Ideal.mulf_def, Ideal.ofBits_def, entry, hidden]

/-- So the reference's result is the whole array of entries. -/
theorem result_eq (a0 : (⟨S262144x16, .f32⟩ : BufTy).Contents (Elt Ideal)) (a1 : (⟨S16x24, .f32⟩ : BufTy).Contents (Elt Ideal))
    (a2 : (⟨S24, .f32⟩ : BufTy).Contents (Elt Ideal)) (a3 : (⟨S24x784, .f32⟩ : BufTy).Contents (Elt Ideal))
    (a4 : (⟨S784, .f32⟩ : BufTy).Contents (Elt Ideal)) :
    val_main_v18 (F := Ideal) a0 a1 a2 a3 a4 = whole a0 a1 a2 a3 a4 := by
  funext i
  obtain ⟨r, q, rfl⟩ : ∃ (r : Fin 262144) (q : Fin 784), i = ix2 r q := ⟨i 0, i 1, eq_ix2 i⟩
  rw [result_entry, whole_apply]

end Cert.Mlp.Ref

end
-- ==== Proof.lean ====
/-
  A two-layer perceptron with a hard-sigmoid output, as a row-tiled kernel and as whole-array array operations: the two
  compute the same 262144 × 784 array on the extended reals.

  Both programs compute, at row `r` and column `q`,

      1 − max (1 − max (¼ · z + ½) 0) 0,      z = (∑ₖ max ((∑ⱼ x[r, j] · W1[j, k]) + b1[k]) 0 · W2[k, q]) + b2[q]

  (`Cert.Mlp.entry`, Proof/MlpSpec.lean). The kernel does it for 4096 rows at a time, over a grid of 64 points, each
  point a matrix product into a zero accumulator, a bias row broadcast over the rows, a rectifier, a second product and
  bias, and the clamp; the reference does it for all rows at once with the host's `dot_general`. Exact arithmetic has no
  rounding, so a product by blocks of rows is the product of the rows, and the four constants are the same binary32
  words on both sides: the two results agree term for term, and no property of the inputs is used — the equality holds
  at the infinities too, because nothing is rearranged.

  * Proof/KernelEntry.lean: the value one point stores is `entry` of its loaded blocks.
  * Proof/KernelArray.lean: point `t`'s block of `x` holds rows `4096·t …`, the other operands are whole at every point,
    the 64 written blocks cover the result: after the run the kernel's result is `Cert.Mlp.whole` of its arguments.
  * Proof/RefEntry.lean: the reference's 29 operations, read at an entry, are `entry`; its result is `whole`.

  The three frames are the programs' runs with the results dropped; the idealization rewrote nothing, so there is
  nothing to preserve.
-/
import proofs.«401535_j35459249995900_3_alg».proof.Defs
import proofs.«401535_j35459249995900_3_alg».proof.Proof.Gen.Kernel
import proofs.«401535_j35459249995900_3_alg».proof.Proof.Gen.Kernel.Skeleton
import proofs.«401535_j35459249995900_3_alg».proof.Proof.Gen.Kernel.Launch
import proofs.«401535_j35459249995900_3_alg».proof.Proof.Gen.Kernel.Points
import proofs.«401535_j35459249995900_3_alg».proof.Proof.Gen.Kernel.Frame
import proofs.«401535_j35459249995900_3_alg».proof.Proof.Gen.KernelIdeal
import proofs.«401535_j35459249995900_3_alg».proof.Proof.Gen.KernelIdeal.Skeleton
import proofs.«401535_j35459249995900_3_alg».proof.Proof.Gen.KernelIdeal.Launch
import proofs.«401535_j35459249995900_3_alg».proof.Proof.Gen.KernelIdeal.Points
import proofs.«401535_j35459249995900_3_alg».proof.Proof.Gen.KernelIdeal.Frame
import proofs.«401535_j35459249995900_3_alg».proof.Proof.Gen.ReferenceIdeal
import proofs.«401535_j35459249995900_3_alg».proof.Proof.Gen.Pre_finite_inputs
import proofs.«401535_j35459249995900_3_alg».proof.Proof.Gen.KernelIdeal.Value
import proofs.«401535_j35459249995900_3_alg».proof.Proof.Gen.ReferenceIdeal.Run
import proofs.«401535_j35459249995900_3_alg».proof.Proof.Gen.ReferenceIdeal.Read
import proofs.«401535_j35459249995900_3_alg».proof.Proof.KernelArray
import proofs.«401535_j35459249995900_3_alg».proof.Proof.RefEntry
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments the kernel's result array ends at `whole` of its arguments and the
    reference's at `whole` of its own: the same array. -/
theorem algebraic : Cert.algebraic_KernelIdeal_ReferenceIdeal := by
  intro m ρ m' ρ' _ hagree
  refine ⟨_, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Mlp.Ref.result_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
